-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x128x1 : Shape := ⟨3, ![100000, 128, 1]⟩
abbrev S100000x128x2 : Shape := ⟨3, ![100000, 128, 2]⟩

abbrev nBuf : Space → Nat
  | .hbm => 71
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S128x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S128x128, .f32⟩
  | .hbm, ⟨66, _⟩ => ⟨S128x128, .f32⟩
  | .hbm, ⟨67, _⟩ => ⟨S100000x128, .f32⟩
  | .hbm, ⟨68, _⟩ => ⟨S100000x128x1, .f32⟩
  | .hbm, ⟨69, _⟩ => ⟨S100000x128x1, .f32⟩
  | .hbm, ⟨70, _⟩ => ⟨S100000x128x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S100000x128_S100000x128x1_0_1 : S100000x128.BroadcastsInDim S100000x128x1 (![0, 1] : Fin 2 → Fin S100000x128x1.rank)
  concatenates_S100000x128x1_S100000x128x1_S100000x128x2_d2 : Shape.Concatenates [S100000x128x1, S100000x128x1] S100000x128x2 2
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x128x1 : Shape := ⟨3, ![100000, 128, 1]⟩
abbrev S100000x128x2 : Shape := ⟨3, ![100000, 128, 2]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128x1, .f32⟩
  | .hbm, ⟨85, _⟩ => ⟨S100000x128x1, .f32⟩
  | .hbm, ⟨86, _⟩ => ⟨S100000x128x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x128_S100000x128x1_0_1 : S100000x128.BroadcastsInDim S100000x128x1 (![0, 1] : Fin 2 → Fin S100000x128x1.rank)
  concatenates_S100000x128x1_S100000x128x1_S100000x128x2_d2 : Shape.Concatenates [S100000x128x1, S100000x128x1] S100000x128x2 2
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KEntry0.lean ====
/-
  The first stretch of host operations of the kernel program, read buffer by buffer.

  From the launch memory the first stretch computes the source and target node of every edge, the mean aggregate of
  the input features over the edges, and the transposed first pair of weights; it writes no argument. Each buffer
  after the stretch is the reference's stage of the same operations applied to the same arguments.
-/
import proofs.«165994_j19851338842495_1_alg».proof.Proof.Gen.KernelIdeal.Frame
import proofs.«165994_j19851338842495_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The mean aggregate of the input features. -/
theorem entry0_agg (c : Dev nD) :
    (W1 m ρ c (Proc.devRef .tc main_v22) : S100000x128.Idx → Elt Ideal .f32) = Cert.ReferenceIdeal.Read.val_main_v22 (F := Ideal) (m ((c.tc : Thread nD τ).loc main_arg0)) (m ((c.tc : Thread nD τ).loc main_arg1)) := by
  unfold W1
  after_results
  rfl

set_option maxHeartbeats 4000000 in
/-- The input features are as launched. -/
theorem entry0_feat (c : Dev nD) :
    (W1 m ρ c (Proc.devRef .tc main_arg0) : S100000x128.Idx → Elt Ideal .f32) = (m ((c.tc : Thread nD τ).loc main_arg0)) := by
  unfold W1
  after_results

set_option maxHeartbeats 4000000 in
/-- The first layer's aggregate weight, transposed. -/
theorem entry0_wl (c : Dev nD) :
    (W1 m ρ c (Proc.devRef .tc main_v23) : S128x128.Idx → Elt Ideal .f32) = Cert.ReferenceIdeal.Read.val_main_v23 (F := Ideal) (m ((c.tc : Thread nD τ).loc main_arg2)) := by
  unfold W1
  after_results
  rfl

set_option maxHeartbeats 4000000 in
/-- The first layer's feature weight, transposed. -/
theorem entry0_wr (c : Dev nD) :
    (W1 m ρ c (Proc.devRef .tc main_v24) : S128x128.Idx → Elt Ideal .f32) = Cert.ReferenceIdeal.Read.val_main_v28 (F := Ideal) (m ((c.tc : Thread nD τ).loc main_arg4)) := by
  unfold W1
  after_results
  rfl

set_option maxHeartbeats 4000000 in
/-- The first layer's bias is as launched. -/
theorem entry0_bias (c : Dev nD) :
    (W1 m ρ c (Proc.devRef .tc main_arg3) : S128.Idx → Elt Ideal .f32) = (m ((c.tc : Thread nD τ).loc main_arg3)) := by
  unfold W1
  after_results

set_option maxHeartbeats 4000000 in
/-- Every edge's source node. -/
theorem stretch0_src (c : Dev nD) :
    (W1 m ρ c (Proc.devRef .tc main_v1) : S1600000.Idx → Elt Ideal .i32) = Cert.ReferenceIdeal.Read.val_main_v1 (F := Ideal) (m ((c.tc : Thread nD τ).loc main_arg1)) := by
  unfold W1
  after_results
  rfl

set_option maxHeartbeats 4000000 in
/-- Every edge's target node. -/
theorem stretch0_dst (c : Dev nD) :
    (W1 m ρ c (Proc.devRef .tc main_v3) : S1600000.Idx → Elt Ideal .i32) = Cert.ReferenceIdeal.Read.val_main_v3 (F := Ideal) (m ((c.tc : Thread nD τ).loc main_arg1)) := by
  unfold W1
  after_results
  rfl

set_option maxHeartbeats 4000000 in
/-- The second layer's aggregate weight is as launched. -/
theorem stretch0_wl2 (c : Dev nD) :
    (W1 m ρ c (Proc.devRef .tc main_arg5) : S128x128.Idx → Elt Ideal .f32) = (m ((c.tc : Thread nD τ).loc main_arg5)) := by
  unfold W1
  after_results

set_option maxHeartbeats 4000000 in
/-- The second layer's feature weight is as launched. -/
theorem stretch0_wr2 (c : Dev nD) :
    (W1 m ρ c (Proc.devRef .tc main_arg7) : S128x128.Idx → Elt Ideal .f32) = (m ((c.tc : Thread nD τ).loc main_arg7)) := by
  unfold W1
  after_results

set_option maxHeartbeats 4000000 in
/-- The second layer's bias is as launched. -/
theorem stretch0_bias2 (c : Dev nD) :
    (W1 m ρ c (Proc.devRef .tc main_arg6) : S128.Idx → Elt Ideal .f32) = (m ((c.tc : Thread nD τ).loc main_arg6)) := by
  unfold W1
  after_results

end Cert.KernelIdeal.Fold

end
-- ==== Proof.Layer.lean ====
/-
  One GraphSAGE layer as a function of whole arrays, entry by entry, over the extended reals.

  For an aggregate `a` and node features `h` (both `n × 128`), two weight matrices `wl`, `wr` already laid out
  `128 (in) × 128 (out)` and a bias row `b`, row `r`, column `q` of the layer's output is
  `max ((Σₖ a[r,k]·wl[k,q] + Σₖ h[r,k]·wr[k,q]) + b[q]) 0`: both products first, then the bias, then the rectifier.
  Adding the bias between the two products instead gives the same extended real.
-/
import Idealize.ShloMosaic.PureOps.Ideal.Laws
import Idealize.ShloMosaic.Lib.ValueIdx

noncomputable section

open scoped BigOperators

namespace Cert.Sage

open Idealize.ShloMosaic Idealize.ShloMosaic.ValueIdx

/-- The layer, entry by entry: both products accumulated first, then the bias, then the rectifier. -/
def layer {n : ℕ} (a h : FVec Ideal ⟨2, ![n, 128]⟩ .f32) (wl wr : FVec Ideal ⟨2, ![128, 128]⟩ .f32)
    (b : FVec Ideal ⟨1, ![128]⟩ .f32) : FVec Ideal ⟨2, ![n, 128]⟩ .f32 :=
  fun i => max ((∑ k : Fin 128, a (ix2 (i 0) k) * wl (ix2 k (i 1)) + ∑ k : Fin 128, h (ix2 (i 0) k) * wr (ix2 k (i 1)))
    + b (ix1 (i 1))) 0

theorem layer_apply {n : ℕ} (a h : FVec Ideal ⟨2, ![n, 128]⟩ .f32) (wl wr : FVec Ideal ⟨2, ![128, 128]⟩ .f32)
    (b : FVec Ideal ⟨1, ![128]⟩ .f32) (r : Fin n) (q : Fin 128) :
    layer a h wl wr b (ix2 r q) = max ((∑ k : Fin 128, a (ix2 r k) * wl (ix2 k q) + ∑ k : Fin 128, h (ix2 r k) * wr (ix2 k q))
      + b (ix1 q)) 0 := rfl

/-- The bias may be added before the second product: addition of extended reals is commutative and associative. -/
theorem add_bias_between (s t b : EReal) : (s + b) + t = (s + t) + b := add_right_comm s b t

end Cert.Sage

end
-- ==== Proof.KPayload.lean ====
/-
  The kernel body's arithmetic read at an entry of its 5000 × 128 block.

  The body casts its five loaded blocks to bf16 (the identity on extended reals), multiplies the aggregate block and the
  feature block by their 128 × 128 weight blocks into zero accumulators, adds the two products, adds the bias row
  broadcast over the rows, and takes the maximum with zero. At row `p`, column `q` that is
  `max ((Σₖ x0[p,k]·x2[k,q] + Σₖ x1[p,k]·x3[k,q]) + x4[q]) 0`.
  A product `[5000,128] · [128,128]` into the zero accumulator, at `(p, q)`, is the inner product of row `p` of the
  left operand with column `q` of the right: the contraction's one axis is re-indexed by its coordinate.
-/
import proofs.«165994_j19851338842495_1_alg».proof.Proof.Gen.KernelIdeal.Skeleton
import proofs.«165994_j19851338842495_1_alg».proof.Proof.Layer
import Idealize.ShloMosaic.Lib.ValueLayout

noncomputable section

open scoped BigOperators

namespace Cert.KernelIdeal.Body

open Cert.KernelIdeal Cert.KernelIdeal.Gen Idealize.ShloMosaic Idealize.ShloMosaic.ValueIdx

/-- The left operand keeps the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted coordinate. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted coordinate. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand keeps the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at an entry: row `p` of `A` against column `q` of `B`. -/
theorem matmul_at {φ₁ φ₂ : FTy} (A : FVec Ideal S5000x128 φ₁) (B : FVec Ideal S128x128 φ₂) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first call's stored value at `(p, q)`. -/
theorem pay0_at (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) 0 := by
  unfold k0_pay1
  simp only [shapeCast_self]
  rw [maximumf_apply, addf_apply, addf_apply, matmul_at, matmul_at, broadcastTo_1b_ab_apply, shapeCast_a_1a_apply, broadcast_apply]
  simp only [truncf_apply, Ideal.ofBits_def, Ideal.ofBits_zero_f32]

/-- The second call's stored value at `(p, q)`: the same arithmetic. -/
theorem pay1_at (x0 x1 : Vec Ideal S5000x128 .f32) (x2 x3 : Vec Ideal S128x128 .f32) (x4 : Vec Ideal S128 .f32)
    (p : Fin 5000) (q : Fin 128) :
    k1_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) 0 := by
  unfold k1_pay1
  simp only [shapeCast_self]
  rw [maximumf_apply, addf_apply, addf_apply, matmul_at, matmul_at, broadcastTo_1b_ab_apply, shapeCast_a_1a_apply, broadcast_apply]
  simp only [truncf_apply, Ideal.ofBits_def, Ideal.ofBits_zero_f32]

end Cert.KernelIdeal.Body

end
-- ==== Proof.KRegion0.lean ====
/-
  The output array of one call after its region, as one function of the arrays the region was entered with.

  A grid point `t` of the call stages rows `5000 t … 5000 t + 4999` of the aggregate and of the features, the two whole
  weight matrices and the whole bias row, and writes the same rows of the output. What it writes is the layer function
  of the entry arrays read at those rows, and the twenty row blocks tile the output array: so after the region the
  output array is the layer function of the entry arrays.
-/
import proofs.«165994_j19851338842495_1_alg».proof.Proof.Gen.KernelIdeal.Frame
import proofs.«165994_j19851338842495_1_alg».proof.Proof.KPayload
import Idealize.ShloMosaic.Lib.Pipeline.Value

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The output array after the region, at any contents `V` on entry -/

/-- The index maps over the grid: the row-tiled windows sit at block `t`, the weights and the bias at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt_N0 (t : Fin cfg0.N) : t.val < 20 := by
  exact lt_of_lt_of_eq t.isLt N_0

/-- The aggregate's block at point `t` is rows `5000 t … 5000 t + 4999` of its array. -/
theorem blk0_agg (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ix2 p k) = (V c main_v22 : S100000x128.Idx → Elt Ideal .f32) i := by
  obtain ⟨e0, e1, -⟩ := idx_facts0 t
  unfold iblk0
  rw [View.read_apply]
  show V c main_v22 _ = V c main_v22 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The features' block at point `t` is the same rows of the features' array. -/
theorem blk0_feat (c : Dev nD) (t : Fin cfg0.N) (p : Fin 5000) (k : Fin 128) (i : S100000x128.Idx)
    (h0 : (i 0).val = t.val * 5000 + p.val) (h1 : (i 1).val = k.val) :
    (iblk0 V c 1 t : Vec Ideal S5000x128 .f32) (ix2 p k) = (V c main_arg0 : S100000x128.Idx → Elt Ideal .f32) i := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * p.val = (i 0).val; rw [e0, h0]; omega
  | ⟨1, _⟩ => show win0_1.index t (1 : Fin 2) * 128 + 1 * k.val = (i 1).val; rw [e1, h1]; omega

/-- The first weight's block is the whole matrix at every point. -/
theorem blk0_wl (c : Dev nD) (t : Fin cfg0.N) (k q : Fin 128) :
    (iblk0 V c 2 t : Vec Ideal S128x128 .f32) (ix2 k q) = (V c main_v23 : S128x128.Idx → Elt Ideal .f32) (ix2 k q) := by
  obtain ⟨-, -, -, -, e0, e1, -⟩ := idx_facts0 t
  unfold iblk0
  rw [View.read_apply]
  show V c main_v23 _ = V c main_v23 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight's block is the whole matrix at every point. -/
theorem blk0_wr (c : Dev nD) (t : Fin cfg0.N) (k q : Fin 128) :
    (iblk0 V c 3 t : Vec Ideal S128x128 .f32) (ix2 k q) = (V c main_v24 : S128x128.Idx → Elt Ideal .f32) (ix2 k q) := by
  obtain ⟨-, -, -, -, -, -, e0, e1, -⟩ := idx_facts0 t
  unfold iblk0
  rw [View.read_apply]
  show V c main_v24 _ = V c main_v24 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias block is the whole row at every point. -/
theorem blk0_bias (c : Dev nD) (t : Fin cfg0.N) (q : Fin 128) :
    (iblk0 V c 4 t : Vec Ideal S128 .f32) (ix1 q) = (V c main_arg3 : S128.Idx → Elt Ideal .f32) (ix1 q) := by
  obtain ⟨-, -, -, -, -, -, -, -, e0, -⟩ := idx_facts0 t
  unfold iblk0
  rw [View.read_apply]
  show V c main_arg3 _ = V c main_arg3 _
  congr 1
  funext a
  apply Fin.ext
  match a with
  | ⟨0, _⟩ => show win0_4.index t (0 : Fin 1) * 128 + 1 * q.val = q.val; rw [e0]; omega

/-- What point `t` writes back is block `t` of the layer function of the arrays the region was entered with. -/
theorem flushed0_eq (c : Dev nD) (t : Fin cfg0.N) :
    (dat0 V c).flushed 5 t = ((cfg0.win 5).blk t).view.read (Elt Ideal)
      (Cert.Sage.layer (V c main_v22) (V c main_arg0) (V c main_v23) (V c main_v24) (V c main_arg3)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  obtain ⟨-, -, -, -, -, -, -, -, -, e0, e1⟩ := idx_facts0 t
  have ht := lt_N0 t
  funext j
  obtain ⟨p, q, rfl⟩ : ∃ (p : Fin 5000) (q : Fin 128), j = ix2 p q := ⟨j 0, j 1, eq_ix2 j⟩
  refine (Cert.KernelIdeal.Body.pay0_at _ _ _ _ _ p q).trans ?_
  rw [View.read_apply]
  have he : ((cfg0.win 5).blk t).view.emb (ix2 p q) = (ix2 (⟨t.val * 5000 + p.val, by have := p.isLt; omega⟩ : Fin 100000) q : S100000x128.Idx) := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 128 + 1 * q.val = q.val; rw [e1]; omega
  rw [he, Cert.Sage.layer_apply]
  refine congrArg (fun z => max z (0 : EReal)) ?_
  refine congrArg₂ (· + ·) (congrArg₂ (· + ·) (Finset.sum_congr rfl fun k _ => ?_) (Finset.sum_congr rfl fun k _ => ?_)) ?_
  · exact congrArg₂ (· * ·) (blk0_agg V c t p k _ rfl rfl) (blk0_wl V c t k q)
  · exact congrArg₂ (· * ·) (blk0_feat V c t p k _ rfl rfl) (blk0_wr V c t k q)
  · exact blk0_bias V c t q

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Row `r` of the output is written by point `r / 5000`: the twenty row blocks tile the array. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := lt_of_lt_of_eq (by omega : (i 0).val / 5000 < 20) N_0.symm
  obtain ⟨-, -, -, -, -, -, -, -, -, e0, e1⟩ := idx_facts0 ⟨(i 0).val / 5000, hN⟩
  refine ⟨⟨(i 0).val / 5000, hN⟩, flush0_5 _, ?_⟩
  rw [mem_blk0]
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ (i 0).val ∧ (i 0).val < (i 0).val / 5000 * 5000 + 5000; omega
  | ⟨1, _⟩ => show win0_5.index _ (1 : Fin 2) * 128 ≤ (i 1).val ∧ (i 1).val < win0_5.index _ (1 : Fin 2) * 128 + 128; rw [e1]; omega

/-- After the region the output array is the layer function of the arrays the region was entered with. -/
theorem final0 (c : Dev nD) : (dat0 V c).arrAt 5 cfg0.N
    = Cert.Sage.layer (V c main_v22) (V c main_arg0) (V c main_v23) (V c main_v24) (V c main_arg3) :=
  (dat0 V c).arrAt_eq_of_cover 5 _ (fun t _ => flushed0_eq V c t) cover0

end Cert.KernelIdeal.Region0

end
-- ==== Proof.KRegion1.lean ====
/-
  The output array of one call after its region, as one function of the arrays the region was entered with.

  A grid point `t` of the call stages rows `5000 t … 5000 t + 4999` of the aggregate and of the features, the two whole
  weight matrices and the whole bias row, and writes the same rows of the output. What it writes is the layer function
  of the entry arrays read at those rows, and the twenty row blocks tile the output array: so after the region the
  output array is the layer function of the entry arrays.
-/
import proofs.«165994_j19851338842495_1_alg».proof.Proof.Gen.KernelIdeal.Frame
import proofs.«165994_j19851338842495_1_alg».proof.Proof.KPayload
import Idealize.ShloMosaic.Lib.Pipeline.Value

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## The output array after the region, at any contents `V` on entry -/

/-- The index maps over the grid: the row-tiled windows sit at block `t`, the weights and the bias at block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem lt_N1 (t : Fin cfg1.N) : t.val < 20 := by
  exact lt_of_lt_of_eq t.isLt N_1

/-- The aggregate's block at point `t` is rows `5000 t … 5000 t + 4999` of its array. -/
theorem blk1_agg (c : Dev nD) (t : Fin cfg1.N) (p : Fin 5000) (k : Fin 128) (i : S100000x128.Idx)
    (h0 : (i 0).val = t.val * 5000 + p.val) (h1 : (i 1).val = k.val) :
    (iblk1 V c 0 t : Vec Ideal S5000x128 .f32) (ix2 p k) = (V c main_v44 : S100000x128.Idx → Elt Ideal .f32) i := by
  obtain ⟨e0, e1, -⟩ := idx_facts1 t
  unfold iblk1
  rw [View.read_apply]
  show V c main_v44 _ = V c main_v44 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- The features' block at point `t` is the same rows of the features' array. -/
theorem blk1_feat (c : Dev nD) (t : Fin cfg1.N) (p : Fin 5000) (k : Fin 128) (i : S100000x128.Idx)
    (h0 : (i 0).val = t.val * 5000 + p.val) (h1 : (i 1).val = k.val) :
    (iblk1 V c 1 t : Vec Ideal S5000x128 .f32) (ix2 p k) = (V c main_v25 : S100000x128.Idx → Elt Ideal .f32) i := by
  obtain ⟨-, -, e0, e1, -⟩ := idx_facts1 t
  unfold iblk1
  rw [View.read_apply]
  show V c main_v25 _ = V c main_v25 _
  congr 1
  funext a
  apply Fin.ext
  match a with
  | ⟨0, _⟩ => show win1_1.index t (0 : Fin 2) * 5000 + 1 * p.val = (i 0).val; rw [e0, h0]; omega
  | ⟨1, _⟩ => show win1_1.index t (1 : Fin 2) * 128 + 1 * k.val = (i 1).val; rw [e1, h1]; omega

/-- The first weight's block is the whole matrix at every point. -/
theorem blk1_wl (c : Dev nD) (t : Fin cfg1.N) (k q : Fin 128) :
    (iblk1 V c 2 t : Vec Ideal S128x128 .f32) (ix2 k q) = (V c main_v45 : S128x128.Idx → Elt Ideal .f32) (ix2 k q) := by
  obtain ⟨-, -, -, -, e0, e1, -⟩ := idx_facts1 t
  unfold iblk1
  rw [View.read_apply]
  show V c main_v45 _ = V c main_v45 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight's block is the whole matrix at every point. -/
theorem blk1_wr (c : Dev nD) (t : Fin cfg1.N) (k q : Fin 128) :
    (iblk1 V c 3 t : Vec Ideal S128x128 .f32) (ix2 k q) = (V c main_v46 : S128x128.Idx → Elt Ideal .f32) (ix2 k q) := by
  obtain ⟨-, -, -, -, -, -, e0, e1, -⟩ := idx_facts1 t
  unfold iblk1
  rw [View.read_apply]
  show V c main_v46 _ = V c main_v46 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias block is the whole row at every point. -/
theorem blk1_bias (c : Dev nD) (t : Fin cfg1.N) (q : Fin 128) :
    (iblk1 V c 4 t : Vec Ideal S128 .f32) (ix1 q) = (V c main_arg6 : S128.Idx → Elt Ideal .f32) (ix1 q) := by
  obtain ⟨-, -, -, -, -, -, -, -, e0, -⟩ := idx_facts1 t
  unfold iblk1
  rw [View.read_apply]
  show V c main_arg6 _ = V c main_arg6 _
  congr 1
  funext a
  apply Fin.ext
  match a with
  | ⟨0, _⟩ => show win1_4.index t (0 : Fin 1) * 128 + 1 * q.val = q.val; rw [e0]; omega

/-- What point `t` writes back is block `t` of the layer function of the arrays the region was entered with. -/
theorem flushed1_eq (c : Dev nD) (t : Fin cfg1.N) :
    (dat1 V c).flushed 5 t = ((cfg1.win 5).blk t).view.read (Elt Ideal)
      (Cert.Sage.layer (V c main_v44) (V c main_v25) (V c main_v45) (V c main_v46) (V c main_arg6)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  obtain ⟨-, -, -, -, -, -, -, -, -, e0, e1⟩ := idx_facts1 t
  have ht := lt_N1 t
  funext j
  obtain ⟨p, q, rfl⟩ : ∃ (p : Fin 5000) (q : Fin 128), j = ix2 p q := ⟨j 0, j 1, eq_ix2 j⟩
  refine (Cert.KernelIdeal.Body.pay1_at _ _ _ _ _ p q).trans ?_
  rw [View.read_apply]
  have he : ((cfg1.win 5).blk t).view.emb (ix2 p q) = (ix2 (⟨t.val * 5000 + p.val, by have := p.isLt; omega⟩ : Fin 100000) q : S100000x128.Idx) := by
    funext a
    apply Fin.ext
    match a with
    | ⟨0, _⟩ => show win1_5.index t (0 : Fin 2) * 5000 + 1 * p.val = t.val * 5000 + p.val; rw [e0]; omega
    | ⟨1, _⟩ => show win1_5.index t (1 : Fin 2) * 128 + 1 * q.val = q.val; rw [e1]; omega
  rw [he, Cert.Sage.layer_apply]
  refine congrArg (fun z => max z (0 : EReal)) ?_
  refine congrArg₂ (· + ·) (congrArg₂ (· + ·) (Finset.sum_congr rfl fun k _ => ?_) (Finset.sum_congr rfl fun k _ => ?_)) ?_
  · exact congrArg₂ (· * ·) (blk1_agg V c t p k _ rfl rfl) (blk1_wl V c t k q)
  · exact congrArg₂ (· * ·) (blk1_feat V c t p k _ rfl rfl) (blk1_wr V c t k q)
  · exact blk1_bias V c t q

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- Row `r` of the output is written by point `r / 5000`: the twenty row blocks tile the array. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 5000 < cfg1.N := lt_of_lt_of_eq (by omega : (i 0).val / 5000 < 20) N_1.symm
  obtain ⟨-, -, -, -, -, -, -, -, -, e0, e1⟩ := idx_facts1 ⟨(i 0).val / 5000, hN⟩
  refine ⟨⟨(i 0).val / 5000, hN⟩, flush1_5 _, ?_⟩
  rw [mem_blk1]
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-- After the region the output array is the layer function of the arrays the region was entered with. -/
theorem final1 (c : Dev nD) : (dat1 V c).arrAt 5 cfg1.N
    = Cert.Sage.layer (V c main_v44) (V c main_v25) (V c main_v45) (V c main_v46) (V c main_arg6) :=
  (dat1 V c).arrAt_eq_of_cover 5 _ (fun t _ => flushed1_eq V c t) cover1

end Cert.KernelIdeal.Region1

end
-- ==== Proof.RefLayer.lean ====
/-
  The reference's two layers are the layer function.

  The reference computes a layer as `max (((a · wl) + b) + (h · wr)) 0`: the aggregate's product, the bias row broadcast
  over the rows, then the features' product, then the rectifier against a zero splat. Read at row `r`, column `q`, each
  product is the sum over the contracted coordinate, the bias is `b[q]`, and moving the bias past the second product
  (commutativity and associativity of the extended reals' addition) gives the layer function's entry.
-/
import proofs.«165994_j19851338842495_1_alg».proof.Proof.Gen.ReferenceIdeal.Read
import proofs.«165994_j19851338842495_1_alg».proof.Proof.Layer

noncomputable section

open scoped BigOperators

namespace Cert.ReferenceIdeal.Layers

open Cert.ReferenceIdeal Cert.ReferenceIdeal.Read Idealize.ShloMosaic Idealize.ShloMosaic.ValueIdx

/-- The first layer: the aggregate of the input features, the input features, the two transposed weights, the bias. -/
theorem first_layer (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v31 (F := Ideal) x0 x1 x2 x3 x4
      = Cert.Sage.layer (val_main_v22 (F := Ideal) x0 x1) x0 (val_main_v23 (F := Ideal) x2) (val_main_v28 (F := Ideal) x4) x3 := by
  funext i
  obtain ⟨r, q, rfl⟩ : ∃ (r : Fin 100000) (q : Fin 128), i = ix2 r q := ⟨i 0, i 1, eq_ix2 i⟩
  have el : ∀ k : Fin 128, lidx_main_v24 (ix2 r q) k = ix2 r k := fun k => funext fun a => Fin.ext (by
    match a with
    | ⟨0, _⟩ => rfl
    | ⟨1, _⟩ => rfl)
  have er : ∀ k : Fin 128, ridx_main_v24 (ix2 r q) k = ix2 k q := fun k => funext fun a => Fin.ext (by
    match a with
    | ⟨0, _⟩ => rfl
    | ⟨1, _⟩ => rfl)
  have el' : ∀ k : Fin 128, lidx_main_v29 (ix2 r q) k = ix2 r k := fun k => funext fun a => Fin.ext (by
    match a with
    | ⟨0, _⟩ => rfl
    | ⟨1, _⟩ => rfl)
  have er' : ∀ k : Fin 128, ridx_main_v29 (ix2 r q) k = ix2 k q := fun k => funext fun a => Fin.ext (by
    match a with
    | ⟨0, _⟩ => rfl
    | ⟨1, _⟩ => rfl)
  have eb : idx_main_v25 (idx_main_v26 (ix2 r q)) = ix1 q := funext fun a => Fin.ext (by
    match a with
    | ⟨0, _⟩ => rfl)
  rw [Cert.Sage.layer_apply, val_main_v31_apply, val_main_v30_apply, val_main_v27_apply, val_main_v24_apply,
    val_main_v29_apply, val_main_v26_apply, val_main_v25_apply, val_main_call0_v0_apply, val_main_call0_cst_apply]
  simp only [el, er, el', er', eb, Ideal.maximumf_def, Ideal.addf_def, Ideal.ofBits_def, Ideal.ofBits_zero_f32]
  rw [Cert.Sage.add_bias_between]

/-- The second layer: the aggregate of the first layer's output, that output, the second pair of weights and bias. -/
theorem second_layer (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 x1 x2 x3 x4 x5 x6 x7
      = Cert.Sage.layer (val_main_v50 (F := Ideal) x0 x1 x2 x3 x4) (val_main_v31 (F := Ideal) x0 x1 x2 x3 x4)
          (val_main_v51 (F := Ideal) x5) (val_main_v56 (F := Ideal) x7) x6 := by
  funext i
  obtain ⟨r, q, rfl⟩ : ∃ (r : Fin 100000) (q : Fin 128), i = ix2 r q := ⟨i 0, i 1, eq_ix2 i⟩
  have el : ∀ k : Fin 128, lidx_main_v52 (ix2 r q) k = ix2 r k := fun k => funext fun a => Fin.ext (by
    match a with
    | ⟨0, _⟩ => rfl
    | ⟨1, _⟩ => rfl)
  have er : ∀ k : Fin 128, ridx_main_v52 (ix2 r q) k = ix2 k q := fun k => funext fun a => Fin.ext (by
    match a with
    | ⟨0, _⟩ => rfl
    | ⟨1, _⟩ => rfl)
  have el' : ∀ k : Fin 128, lidx_main_v57 (ix2 r q) k = ix2 r k := fun k => funext fun a => Fin.ext (by
    match a with
    | ⟨0, _⟩ => rfl
    | ⟨1, _⟩ => rfl)
  have er' : ∀ k : Fin 128, ridx_main_v57 (ix2 r q) k = ix2 k q := fun k => funext fun a => Fin.ext (by
    match a with
    | ⟨0, _⟩ => rfl
    | ⟨1, _⟩ => rfl)
  have eb : idx_main_v53 (idx_main_v54 (ix2 r q)) = ix1 q := funext fun a => Fin.ext (by
    match a with
    | ⟨0, _⟩ => rfl)
  rw [Cert.Sage.layer_apply, val_main_v59_apply, val_main_v58_apply, val_main_v55_apply, val_main_v52_apply,
    val_main_v57_apply, val_main_v54_apply, val_main_v53_apply, val_main_call1_v0_apply, val_main_call1_cst_apply]
  simp only [el, er, el', er', eb, Ideal.maximumf_def, Ideal.addf_def, Ideal.ofBits_def, Ideal.ofBits_zero_f32]
  rw [Cert.Sage.add_bias_between]

end Cert.ReferenceIdeal.Layers

end
-- ==== Proof.KFold.lean ====
/-
  The kernel program's result as a function of its arguments.

  The buffer contents at each boundary of @main are a fold from the launch memory: a stretch of host operations applies
  its operations, a region leaves its output array at the layer function of the arrays it was entered with and every
  other buffer as it was. Walking the fold: the first region leaves the first layer of the mean aggregate and the input
  features; the second stretch aggregates that layer's output over the same edges and transposes the second pair of
  weights; the second region leaves the second layer; the last stretch joins the two layers on a new last axis. Each
  stage is the reference's stage of the same name: the host operations are the same operations on the same operands,
  and a region's layer function is the reference's layer.
-/
import proofs.«165994_j19851338842495_1_alg».proof.Proof.Gen.KernelIdeal.Frame
import proofs.«165994_j19851338842495_1_alg».proof.Proof.Gen.ReferenceIdeal.Read
import proofs.«165994_j19851338842495_1_alg».proof.Proof.KEntry0
import proofs.«165994_j19851338842495_1_alg».proof.Proof.KRegion0
import proofs.«165994_j19851338842495_1_alg».proof.Proof.KRegion1
import proofs.«165994_j19851338842495_1_alg».proof.Proof.RefLayer
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- After the first region its output array is the reference's first layer. -/
theorem exit0 (c : Dev nD) :
    (W2 m ρ c (Proc.devRef .tc main_v25) : S100000x128.Idx → Elt Ideal .f32) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((Cert.KernelIdeal.Region0.final0 (V1 m ρ) c).trans ?_)
  rw [Cert.ReferenceIdeal.Layers.first_layer]
  show Cert.Sage.layer (W1 m ρ c (Proc.devRef .tc main_v22)) (W1 m ρ c (Proc.devRef .tc main_arg0))
    (W1 m ρ c (Proc.devRef .tc main_v23)) (W1 m ρ c (Proc.devRef .tc main_v24)) (W1 m ρ c (Proc.devRef .tc main_arg3)) = _
  rw [entry0_agg, entry0_feat, entry0_wl, entry0_wr, entry0_bias]

/-- The first region leaves the edges' source nodes as the first stretch computed them. -/
theorem mid_src (c : Dev nD) :
    (W2 m ρ c (Proc.devRef .tc main_v1) : S1600000.Idx → Elt Ideal .i32) = Cert.ReferenceIdeal.Read.val_main_v1 (F := Ideal) (m ((c.tc : Thread nD τ).loc main_arg1)) :=
  (W2_of_ne m ρ c main_v1 (by decide)).trans (stretch0_src m ρ c)
/-- And the target nodes. -/
theorem mid_dst (c : Dev nD) :
    (W2 m ρ c (Proc.devRef .tc main_v3) : S1600000.Idx → Elt Ideal .i32) = Cert.ReferenceIdeal.Read.val_main_v3 (F := Ideal) (m ((c.tc : Thread nD τ).loc main_arg1)) :=
  (W2_of_ne m ρ c main_v3 (by decide)).trans (stretch0_dst m ρ c)
/-- And the second layer's arguments. -/
theorem mid_wl2 (c : Dev nD) : (W2 m ρ c (Proc.devRef .tc main_arg5) : S128x128.Idx → Elt Ideal .f32) = (m ((c.tc : Thread nD τ).loc main_arg5)) :=
  (W2_of_ne m ρ c main_arg5 (by decide)).trans (stretch0_wl2 m ρ c)
theorem mid_wr2 (c : Dev nD) : (W2 m ρ c (Proc.devRef .tc main_arg7) : S128x128.Idx → Elt Ideal .f32) = (m ((c.tc : Thread nD τ).loc main_arg7)) :=
  (W2_of_ne m ρ c main_arg7 (by decide)).trans (stretch0_wr2 m ρ c)
theorem mid_bias2 (c : Dev nD) : (W2 m ρ c (Proc.devRef .tc main_arg6) : S128.Idx → Elt Ideal .f32) = (m ((c.tc : Thread nD τ).loc main_arg6)) :=
  (W2_of_ne m ρ c main_arg6 (by decide)).trans (stretch0_bias2 m ρ c)

set_option maxHeartbeats 4000000 in
/-- Entering the second region: the mean aggregate of the first layer's output over the same edges. -/
theorem entry1_agg (c : Dev nD) :
    (W3 m ρ c (Proc.devRef .tc main_v44) : S100000x128.Idx → Elt Ideal .f32) = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3
  after_results
  rw [exit0, mid_src, mid_dst]
  rfl

set_option maxHeartbeats 4000000 in
/-- The first layer's output is untouched by the second stretch. -/
theorem entry1_feat (c : Dev nD) :
    (W3 m ρ c (Proc.devRef .tc main_v25) : S100000x128.Idx → Elt Ideal .f32) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W3
  after_results
  exact exit0 m ρ c

set_option maxHeartbeats 4000000 in
/-- The second layer's aggregate weight, transposed. -/
theorem entry1_wl (c : Dev nD) :
    (W3 m ρ c (Proc.devRef .tc main_v45) : S128x128.Idx → Elt Ideal .f32) = Cert.ReferenceIdeal.Read.val_main_v51 (F := Ideal) (m ((c.tc : Thread nD τ).loc main_arg5)) := by
  unfold W3
  after_results
  rw [mid_wl2]
  rfl

set_option maxHeartbeats 4000000 in
/-- The second layer's feature weight, transposed. -/
theorem entry1_wr (c : Dev nD) :
    (W3 m ρ c (Proc.devRef .tc main_v46) : S128x128.Idx → Elt Ideal .f32) = Cert.ReferenceIdeal.Read.val_main_v56 (F := Ideal) (m ((c.tc : Thread nD τ).loc main_arg7)) := by
  unfold W3
  after_results
  rw [mid_wr2]
  rfl

set_option maxHeartbeats 4000000 in
/-- The second layer's bias is as launched. -/
theorem entry1_bias (c : Dev nD) :
    (W3 m ρ c (Proc.devRef .tc main_arg6) : S128.Idx → Elt Ideal .f32) = (m ((c.tc : Thread nD τ).loc main_arg6)) := by
  unfold W3
  after_results
  exact mid_bias2 m ρ c

/-- After the second region its output array is the reference's second layer. -/
theorem exit1 (c : Dev nD) :
    (W4 m ρ c (Proc.devRef .tc main_v47) : S100000x128.Idx → Elt Ideal .f32) = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ((Cert.KernelIdeal.Region1.final1 (V3 m ρ) c).trans ?_)
  rw [Cert.ReferenceIdeal.Layers.second_layer]
  show Cert.Sage.layer (W3 m ρ c (Proc.devRef .tc main_v44)) (W3 m ρ c (Proc.devRef .tc main_v25))
    (W3 m ρ c (Proc.devRef .tc main_v45)) (W3 m ρ c (Proc.devRef .tc main_v46)) (W3 m ρ c (Proc.devRef .tc main_arg6)) = _
  rw [entry1_agg, entry1_feat, entry1_wl, entry1_wr, entry1_bias]

/-- The second region only reads the first layer's output. -/
theorem keep1 (c : Dev nD) :
    (W4 m ρ c (Proc.devRef .tc main_v25) : S100000x128.Idx → Elt Ideal .f32) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 1).trans (((dat1 (V3 m ρ) c).arrAt_in 1 rfl _).trans ((A_eq1 (V3 m ρ) c 1).trans (entry1_feat m ρ c)))

set_option maxHeartbeats 4000000 in
/-- THE RESULT: the two layers joined on a new last axis, the reference's last stage. -/
theorem result (c : Dev nD) :
    (W5 m ρ c (Proc.devRef .tc main_v50) : S100000x128x2.Idx → Elt Ideal .f32) = Cert.ReferenceIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold W5
  after_results
  rw [keep1, exit1]
  rfl

end Cert.KernelIdeal.Fold

end
-- ==== Proof.lean ====
/-
  A two-layer GraphSAGE encoder (mean aggregation, two linear maps, a rectifier) as a kernel program against its
  reference, over the extended reals.

  Both programs aggregate with the same host operations: gather the features at each edge's source, add them into the
  edge's target row, divide by the in-degree clamped below by one. The kernel program then runs a tiled call per layer
  that forms `max ((a·wlᵀ + h·wrᵀ) + b) 0` row block by row block; the reference forms `max (((a·wlᵀ) + b) + h·wrᵀ) 0` on
  whole arrays. The two agree entry by entry because addition of extended reals is commutative and associative; the
  casts to bf16 in the kernel are the identity on extended reals, and a block product into a zero accumulator is the
  same finite sum as the reference's contraction. No finiteness of the inputs is used.

  The three frames are the generated ones (the reference's is its run with the result dropped); the idealization
  rewrote nothing, so `preserves` is trivial. For the value claim the kernel program's run is re-posted with its result
  array named (`Result.run_result`), the result is walked back through the boundaries of @main to the arguments
  (`Fold.result`), and both sides end at the reference's last stage of arguments that agree.
-/
import proofs.«165994_j19851338842495_1_alg».proof.Defs
import proofs.«165994_j19851338842495_1_alg».proof.Proof.Gen.Kernel
import proofs.«165994_j19851338842495_1_alg».proof.Proof.Gen.Kernel.Skeleton
import proofs.«165994_j19851338842495_1_alg».proof.Proof.Gen.Kernel.Launch
import proofs.«165994_j19851338842495_1_alg».proof.Proof.Gen.Kernel.Points
import proofs.«165994_j19851338842495_1_alg».proof.Proof.Gen.Kernel.Frame
import proofs.«165994_j19851338842495_1_alg».proof.Proof.Gen.KernelIdeal
import proofs.«165994_j19851338842495_1_alg».proof.Proof.Gen.KernelIdeal.Skeleton
import proofs.«165994_j19851338842495_1_alg».proof.Proof.Gen.KernelIdeal.Launch
import proofs.«165994_j19851338842495_1_alg».proof.Proof.Gen.KernelIdeal.Points
import proofs.«165994_j19851338842495_1_alg».proof.Proof.Gen.KernelIdeal.Frame
import proofs.«165994_j19851338842495_1_alg».proof.Proof.Gen.ReferenceIdeal
import proofs.«165994_j19851338842495_1_alg».proof.Proof.Gen.ReferenceIdeal.Run
import proofs.«165994_j19851338842495_1_alg».proof.Proof.Gen.ReferenceIdeal.Read
import proofs.«165994_j19851338842495_1_alg».proof.Proof.Gen.Pre_finite_inputs
import proofs.«165994_j19851338842495_1_alg».proof.Proof.KRun
import proofs.«165994_j19851338842495_1_alg».proof.Proof.KFold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel program ends with its result at the reference's last stage of ITS arguments, the reference with its
    result at that stage of its own; the arguments agree. -/
theorem algebraic : Cert.algebraic_KernelIdeal_ReferenceIdeal := by
  intro m ρ m' ρ' _ hagree
  refine ⟨fun c => Cert.KernelIdeal.Gen.W5 m ρ c (Proc.devRef .tc Cert.KernelIdeal.main_v50),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v62_eq, h0, h1, h2, h3, h4, h5, h6, h7]
  exact (Cert.KernelIdeal.Fold.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
